-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x32x32 : Shape := ⟨4, ![32, 64, 32, 32]⟩
abbrev S16x64 : Shape := ⟨2, ![16, 64]⟩
abbrev S_ : Shape := ⟨0, ![]⟩

class Facts : Prop where
  bcast_S_S32x64x32x32 : S_.BroadcastsInDim S32x64x32x32 (![] : Fin 0 → Fin S32x64x32x32.rank)
  reducesTo_S32x64x32x32_S_d0_1_2_3 : S32x64x32x32.ReducesTo [0, 1, 2, 3] S_
  h_S_ : 0 < S_.numel
  bcast_S_S16x64 : S_.BroadcastsInDim S16x64 (![] : Fin 0 → Fin S16x64.rank)
  reducesTo_S16x64_S_d0_1 : S16x64.ReducesTo [0, 1] S_

variable [Facts]

def fn {F : FTy → Type} [FloatOps F] (main_arg0 : FVec F S32x64x32x32 .f32) (main_arg1 : FVec F S16x64 .f32) (main_arg2 : FVec F S16x64 .f32) : IVec S_ 1 :=
  let main_v0 : FVec F S32x64x32x32 .f32 := Host.absf main_arg0
  let main_cst : FVec F S_ .f32 := constant S_ .f32 0x7F800000#32
  let main_v1 : FVec F S32x64x32x32 .f32 := broadcastInDim S32x64x32x32 ![] bcast_S_S32x64x32x32 main_cst
  let main_v2 : IVec S32x64x32x32 1 := cmpf .olt main_v0 main_v1
  let main_c : IVec S_ 1 := constantI S_ 1 1#1
  let main_v3 : IVec S_ 1 := (fun x v => Host.reduce IntOp.andi x v reducesTo_S32x64x32x32_S_d0_1_2_3 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  main_v13
-- ==== Kernel.lean ====
abbrev S32x64x32x32 : Shape := ⟨4, ![32, 64, 32, 32]⟩
abbrev S16x64 : Shape := ⟨2, ![16, 64]⟩
abbrev S32x64x1024 : Shape := ⟨3, ![32, 64, 1024]⟩
abbrev S2x64 : Shape := ⟨2, ![2, 64]⟩
abbrev S64x1024 : Shape := ⟨2, ![64, 1024]⟩
abbrev S64 : Shape := ⟨1, ![64]⟩
abbrev S1x64x1 : Shape := ⟨3, ![1, 64, 1]⟩
abbrev S1x64 : Shape := ⟨2, ![1, 64]⟩
abbrev S32x16x64x1024 : Shape := ⟨4, ![32, 16, 64, 1024]⟩
abbrev S16x64x1024 : Shape := ⟨3, ![16, 64, 1024]⟩
abbrev S16x1x64x1024 : Shape := ⟨4, ![16, 1, 64, 1024]⟩
abbrev S16x1 : Shape := ⟨2, ![16, 1]⟩
abbrev S16 : Shape := ⟨1, ![16]⟩
abbrev S32x1024x32x32 : Shape := ⟨4, ![32, 1024, 32, 32]⟩

abbrev nBuf : Space → Nat
  | .hbm => 7
  | .vmem => 9
  | .smem => 0
  | _ => 0

abbrev bufTy : (tb : Table) → Fin (tcTables nBuf tb) → BufTy
  | .hbm, ⟨0, _⟩ => ⟨S32x64x32x32, .f32⟩
  | .hbm, ⟨1, _⟩ => ⟨S16x64, .f32⟩
  | .hbm, ⟨2, _⟩ => ⟨S16x64, .f32⟩
  | .hbm, ⟨3, _⟩ => ⟨S32x64x1024, .f32⟩
  | .hbm, ⟨4, _⟩ => ⟨S2x64, .f32⟩
  | .hbm, ⟨5, _⟩ => ⟨S32x16x64x1024, .f32⟩
  | .hbm, ⟨6, _⟩ => ⟨S32x1024x32x32, .f32⟩
  | .local _ .vmem, ⟨0, _⟩ => ⟨S32x64x1024, .f32⟩
  | .local _ .vmem, ⟨1, _⟩ => ⟨S2x64, .f32⟩
  | .local _ .vmem, ⟨2, _⟩ => ⟨S16x64x1024, .f32⟩
  | .local _ .vmem, ⟨3, _⟩ => ⟨S16x64x1024, .f32⟩
  | .local _ .vmem, ⟨4, _⟩ => ⟨S2x64, .f32⟩
  | .local _ .vmem, ⟨5, _⟩ => ⟨S16x64, .f32⟩
  | .local _ .vmem, ⟨6, _⟩ => ⟨S16x64, .f32⟩
  | .local _ .vmem, ⟨7, _⟩ => ⟨S16x1x64x1024, .f32⟩
  | .local _ .vmem, ⟨8, _⟩ => ⟨S16x1x64x1024, .f32⟩
  | _, _ => ⟨S32x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg4_1 : Ref sig .tc := ⟨.vmem, 8, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem4_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S16x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S16x1x64x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S32x64x32x32_S32x64x1024 : S32x64x32x32.ShapeCasts S32x64x1024
  inb_S32x64x1024_S32x64x1024_0_0_0 : ∀ a, (![0, 0, 0] : Fin 3 → Nat) a + S32x64x1024.size a ≤ S32x64x1024.size a
  h_S32x64x1024 : 0 < S32x64x1024.numel
  shapeCasts_S32x64x1024_S32x64x1024 : S32x64x1024.ShapeCasts S32x64x1024
  reduces_S32x64x1024_S64x1024 : S32x64x1024.Reduces [0] S64x1024
  reduces_S64x1024_S64 : S64x1024.Reduces [1] S64
  shapeCasts_S64_S1x64x1 : S64.ShapeCasts S1x64x1
  broadcasts_S1x64x1_S32x64x1024 : S1x64x1.Broadcasts S32x64x1024
  inb_S2x64_S1x64_0_0 : ∀ a, (![0, 0] : Fin 2 → Nat) a + S1x64.size a ≤ S2x64.size a
  h_S1x64 : 0 < S1x64.numel
  shapeCasts_S1x64_S64 : S1x64.ShapeCasts S64
  shapeCasts_S64_S1x64 : S64.ShapeCasts S1x64
  inb_S2x64_S1x64_1_0 : ∀ a, (![1, 0] : Fin 2 → Nat) a + S1x64.size a ≤ S2x64.size a
  inb_S16x64x1024_S16x64x1024_0_0_0 : ∀ a, (![0, 0, 0] : Fin 3 → Nat) a + S16x64x1024.size a ≤ S16x64x1024.size a
  h_S16x64x1024 : 0 < S16x64x1024.numel
  shapeCasts_S16x64x1024_S16x64x1024 : S16x64x1024.ShapeCasts S16x64x1024
  inb_S16x64_S16x64_0_0 : ∀ a, (![0, 0] : Fin 2 → Nat) a + S16x64.size a ≤ S16x64.size a
  h_S16x64 : 0 < S16x64.numel
  iota_S16x1_d0_w32 : S16x1.Iotas .tc 32 [0]
  shapeCasts_S16x1_S16 : S16x1.ShapeCasts S16
  natLt_1_32 : 1 < 32
  shapeCasts_S16_S16x1 : S16.ShapeCasts S16x1
  broadcasts_S16x1_S16x64 : S16x1.Broadcasts S16x64
  reduces_S16x64_S64 : S16x64.Reduces [0] S64
  broadcasts_S1x64x1_S16x64x1024 : S1x64x1.Broadcasts S16x64x1024
  inb_S16x1x64x1024_S16x1x64x1024_0_0_0_0 : ∀ a, (![0, 0, 0, 0] : Fin 4 → Nat) a + S16x1x64x1024.size a ≤ S16x1x64x1024.size a
  h_S16x1x64x1024 : 0 < S16x1x64x1024.numel
  shapeCasts_S16x1x64x1024_S16x64x1024 : S16x1x64x1024.ShapeCasts S16x64x1024
  shapeCasts_S16x64x1024_S16x1x64x1024 : S16x64x1024.ShapeCasts S16x1x64x1024
  shapeCasts_S32x16x64x1024_S32x1024x32x32 : S32x16x64x1024.ShapeCasts S32x1024x32x32
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x64x1024.size a ≤ S32x64x1024.size a
  hwx0_0 : ∀ i : grid0.Coords, EltTy.bits .f32 = 32 ∨ (Rect.block (s := S32x64x1024) S32x64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x64x1024.size a ≤ S32x64x1024.size a
  hwx1_0 : ∀ i : grid1.Coords, EltTy.bits .f32 = 32 ∨ (Rect.block (s := S32x64x1024) S16x64x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x64.size a ≤ S2x64.size a
  hwx1_1 : ∀ i : grid1.Coords, EltTy.bits .f32 = 32 ∨ (Rect.block (s := S2x64) S2x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S16x64.size a
  hwx1_3 : ∀ i : grid1.Coords, EltTy.bits .f32 = 32 ∨ (Rect.block (s := S16x64) S16x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x1x64x1024.size a ≤ S32x16x64x1024.size a
  hwx1_4 : ∀ i : grid1.Coords, EltTy.bits .f32 = 32 ∨ (Rect.block (s := S32x16x64x1024) S16x1x64x1024.size (cc1_transform_4 i) (hinb1_4 i)).WholeWords (EltTy.packing .f32)

variable [Facts₀]

abbrev win0_0 : Pipeline.Window sig grid0 :=
  Pipeline.Window.ofSpec (Memref.whole main_v0) S32x64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x64.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S16x64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S16x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S16x1x64x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32x64x32x32 : Shape := ⟨4, ![32, 64, 32, 32]⟩
abbrev S16x64 : Shape := ⟨2, ![16, 64]⟩
abbrev S_ : Shape := ⟨0, ![]⟩
abbrev S64 : Shape := ⟨1, ![64]⟩
abbrev S1x64x1x1 : Shape := ⟨4, ![1, 64, 1, 1]⟩
abbrev S1x16x64x1x1 : Shape := ⟨5, ![1, 16, 64, 1, 1]⟩
abbrev S32x1x64x32x32 : Shape := ⟨5, ![32, 1, 64, 32, 32]⟩
abbrev S32x16x64x32x32 : Shape := ⟨5, ![32, 16, 64, 32, 32]⟩
abbrev S32x1024x32x32 : Shape := ⟨4, ![32, 1024, 32, 32]⟩

abbrev nBuf : Space → Nat
  | .hbm => 36
  | .vmem => 0
  | .smem => 0
  | _ => 0

abbrev bufTy : (tb : Table) → Fin (tcTables nBuf tb) → BufTy
  | .hbm, ⟨0, _⟩ => ⟨S32x64x32x32, .f32⟩
  | .hbm, ⟨1, _⟩ => ⟨S16x64, .f32⟩
  | .hbm, ⟨2, _⟩ => ⟨S16x64, .f32⟩
  | .hbm, ⟨3, _⟩ => ⟨S_, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S1x64x1x1, .f32⟩
  | .hbm, ⟨9, _⟩ => ⟨S32x64x32x32, .f32⟩
  | .hbm, ⟨10, _⟩ => ⟨S32x64x32x32, .f32⟩
  | .hbm, ⟨11, _⟩ => ⟨S32x64x32x32, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S1x64x1x1, .f32⟩
  | .hbm, ⟨22, _⟩ => ⟨S32x64x32x32, .f32⟩
  | .hbm, ⟨23, _⟩ => ⟨S32x64x32x32, .f32⟩
  | .hbm, ⟨24, _⟩ => ⟨S1x64x1x1, .f32⟩
  | .hbm, ⟨25, _⟩ => ⟨S32x64x32x32, .f32⟩
  | .hbm, ⟨26, _⟩ => ⟨S32x64x32x32, .f32⟩
  | .hbm, ⟨27, _⟩ => ⟨S1x16x64x1x1, .f32⟩
  | .hbm, ⟨28, _⟩ => ⟨S32x1x64x32x32, .f32⟩
  | .hbm, ⟨29, _⟩ => ⟨S32x16x64x32x32, .f32⟩
  | .hbm, ⟨30, _⟩ => ⟨S32x16x64x32x32, .f32⟩
  | .hbm, ⟨31, _⟩ => ⟨S32x16x64x32x32, .f32⟩
  | .hbm, ⟨32, _⟩ => ⟨S1x16x64x1x1, .f32⟩
  | .hbm, ⟨33, _⟩ => ⟨S32x16x64x32x32, .f32⟩
  | .hbm, ⟨34, _⟩ => ⟨S32x16x64x32x32, .f32⟩
  | .hbm, ⟨35, _⟩ => ⟨S32x1024x32x32, .f32⟩
  | _, _ => ⟨S32x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  reducesTo_S32x64x32x32_S64_d0_2_3 : S32x64x32x32.ReducesTo [0, 2, 3] S64
  h_S_ : 0 < S_.numel
  bcast_S_S64 : S_.BroadcastsInDim S64 (![] : Fin 0 → Fin S64.rank)
  bcast_S64_S1x64x1x1_1 : S64.BroadcastsInDim S1x64x1x1 (![1] : Fin 1 → Fin S1x64x1x1.rank)
  bcast_S1x64x1x1_S32x64x32x32_0_1_2_3 : S1x64x1x1.BroadcastsInDim S32x64x32x32 (![0, 1, 2, 3] : Fin 4 → Fin S32x64x32x32.rank)
  bcast_S16x64_S1x16x64x1x1_1_2 : S16x64.BroadcastsInDim S1x16x64x1x1 (![1, 2] : Fin 2 → Fin S1x16x64x1x1.rank)
  bcast_S32x64x32x32_S32x1x64x32x32_0_2_3_4 : S32x64x32x32.BroadcastsInDim S32x1x64x32x32 (![0, 2, 3, 4] : Fin 4 → Fin S32x1x64x32x32.rank)
  bcast_S1x16x64x1x1_S32x16x64x32x32_0_1_2_3_4 : S1x16x64x1x1.BroadcastsInDim S32x16x64x32x32 (![0, 1, 2, 3, 4] : Fin 5 → Fin S32x16x64x32x32.rank)
  bcast_S32x1x64x32x32_S32x16x64x32x32_0_1_2_3_4 : S32x1x64x32x32.BroadcastsInDim S32x16x64x32x32 (![0, 1, 2, 3, 4] : Fin 5 → Fin S32x16x64x32x32.rank)
  shapeCasts_S32x16x64x32x32_S32x1024x32x32 : S32x16x64x32x32.ShapeCasts S32x1024x32x32

variable [Facts₀]

class Facts : Prop extends Facts₀ where

variable [Facts]
-- ==== Proof.BnSpec.lean ====
/-
  What both programs compute, as one function of the three argument arrays over the extended reals.

  The input `x` has shape [32, 64, 32, 32] (batch, channel, height, width); `g` and `bt` are [16, 64] tables (branch, channel).
  Per channel `c`: the mean of `x` over batch, height and width (32·32·32 = 32768 = 2^15 entries; the sum times 2^-15), the biased
  variance (the mean of the squared deviations), and the inverse standard deviation `rsqrt (var + eps)`. Each of the 16 branches
  applies its own affine map to the one normalized input: `g n c · ((x b c h w − mean c) · istd c) + bt n c`, and the branches are
  laid side by side along the channel axis: output channel `n · 64 + c` of the [32, 1024, 32, 32] result.
-/
import Idealize.ShloMosaic.PureOps.Ideal
import Idealize.ShloMosaic.Lib.ValueIdx

noncomputable section

open scoped BigOperators

namespace Cert.BnSpec

open Idealize.ShloMosaic Idealize.ShloMosaic.ValueIdx

/-- The input's shape, the parameter tables' shape, the result's shape. -/
abbrev SX : Shape := ⟨4, ![32, 64, 32, 32]⟩
abbrev SP : Shape := ⟨2, ![16, 64]⟩
abbrev SO : Shape := ⟨4, ![32, 1024, 32, 32]⟩

/-- 2^-15, the reciprocal of the number of entries a channel's statistics run over, as the pattern both kernels multiply by. -/
abbrev invCount : EReal := Ideal.ofBits .f32 0x38000000#32
/-- The stabilizer added to the variance (the f32 nearest 1e-5; the same pattern in both programs, so never evaluated). -/
abbrev eps : EReal := Ideal.ofBits .f32 0x3727C5AC#32

/-- The sum over batch, height and width of a channel's entries. -/
def chanSum (f : Fin 32 → Fin 32 → Fin 32 → EReal) : EReal := ∑ b : Fin 32, ∑ h : Fin 32, ∑ w : Fin 32, f b h w

/-- Channel `c`'s mean. -/
def mean (x : SX.Idx → EReal) (c : Fin 64) : EReal := chanSum (fun b h w => x (ix4 b c h w)) * invCount

/-- Channel `c`'s biased variance. -/
def var (x : SX.Idx → EReal) (c : Fin 64) : EReal :=
  chanSum (fun b h w => (x (ix4 b c h w) - mean x c) * (x (ix4 b c h w) - mean x c)) * invCount

/-- Channel `c`'s inverse standard deviation. -/
def istd (x : SX.Idx → EReal) (c : Fin 64) : EReal := Ideal.rsqrt (var x c + eps)

/-- Branch `n`'s output at batch `b`, channel `c`, position `(h, w)`. -/
def branch (x : SX.Idx → EReal) (g bt : SP.Idx → EReal) (b : Fin 32) (n : Fin 16) (c : Fin 64) (h w : Fin 32) : EReal :=
  g (ix2 n c) * ((x (ix4 b c h w) - mean x c) * istd x c) + bt (ix2 n c)

/-- The result array: output channel `q` is branch `q / 64`'s channel `q % 64`. -/
def result (x : SX.Idx → EReal) (g bt : SP.Idx → EReal) : SO.Idx → EReal := fun j =>
  branch x g bt ⟨(j 0).val, (j 0).isLt⟩
    ⟨(j 1).val / 64, by have h : (j 1).val < 1024 := (j 1).isLt; omega⟩
    ⟨(j 1).val % 64, Nat.mod_lt _ (by decide)⟩
    ⟨(j 2).val, (j 2).isLt⟩ ⟨(j 3).val, (j 3).isLt⟩

end Cert.BnSpec

end
-- ==== Proof.KStats.lean ====
/-
  The first kernel, read at an index. Its one block is the whole input folded to [32, 64, 1024]; it stores two rows of a [2, 64]
  table. Row 0, at channel c: the sum over the 32 batch rows, then over the 1024 lanes, of the block's entries at c, times the
  pattern of 2^-15 (`meanK`). Row 1: the same double sum of the squared deviations from that mean, times the same pattern, plus the
  stabilizer, under the inverse square root (`istdK`). Each lane reduction over one axis is a `Fin`-indexed sum over that axis;
  the spread of a per-channel vector back over the block reads the vector at the channel; the two stored rows tile the table, so
  the staging buffer after the body is the one function `statsK`.
-/
import proofs.«104697_j7902739824826_1_alg».proof.Proof.KernelIdealFrame
import proofs.«104697_j7902739824826_1_alg».proof.Proof.BnSpec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KStats

open Cert.KernelIdeal Cert.KernelIdeal.Gen Cert.KernelIdeal.GenP Idealize.ShloMosaic Idealize.ShloMosaic.ValueIdx

/-- A channel's sum in the order the first kernel takes it: over the batch rows inside, over the 1024 lanes outside. -/
def lanesRows (f : Fin 32 → Fin 1024 → EReal) : EReal := ∑ hw : Fin 1024, ∑ b : Fin 32, f b hw

/-- Channel `c`'s mean, variance and inverse standard deviation of a [32, 64, 1024] array, as the first kernel computes them. -/
def meanK (x0 : FVec Ideal S32x64x1024 .f32) (c : Fin 64) : EReal :=
  lanesRows (fun b hw => x0 (ix3 b c hw)) * Cert.BnSpec.invCount
def varK (x0 : FVec Ideal S32x64x1024 .f32) (c : Fin 64) : EReal :=
  lanesRows (fun b hw => (x0 (ix3 b c hw) - meanK x0 c) * (x0 (ix3 b c hw) - meanK x0 c)) * Cert.BnSpec.invCount
def istdK (x0 : FVec Ideal S32x64x1024 .f32) (c : Fin 64) : EReal := Ideal.rsqrt (varK x0 c + Cert.BnSpec.eps)

/-- The [2, 64] table the first kernel writes: row 0 the means, row 1 the inverse standard deviations. -/
def statsK (x0 : FVec Ideal S32x64x1024 .f32) : FVec Ideal S2x64 .f32 := fun i =>
  if (i 0).val = 0 then meanK x0 ⟨(i 1).val, (i 1).isLt⟩ else istdK x0 ⟨(i 1).val, (i 1).isLt⟩

/-- The reduced index (c) with a lane and then a row put back is (row, c, lane). -/
theorem lift_lift (c : Fin 64) (hw : Fin 1024) (b : Fin 32) :
    Facts₀.reduces_S32x64x1024_S64x1024.lift (Facts₀.reduces_S64x1024_S64.lift (ix1 c) hw) b = ix3 b c hw :=
  funext fun a => Fin.ext (by match a with | ⟨0, _⟩ => rfl | ⟨1, _⟩ => rfl | ⟨2, _⟩ => rfl)

/-- The two lane reductions in a row — over axis 0, then over the remaining axis 1 — read at channel `c`: the sum over lanes of the
    sums over rows. -/
theorem rows_then_lanes (y : FVec Ideal S32x64x1024 .f32) (c : Fin 64) :
    multiReduction (F := Ideal) .add [1] S64
        (multiReduction (F := Ideal) .add [0] S64x1024 y 0x00000000#32 Facts₀.reduces_S32x64x1024_S64x1024 (.inl rfl) rfl)
        0x00000000#32 Facts₀.reduces_S64x1024_S64 (.inl rfl) rfl (ix1 c)
      = lanesRows (fun b hw => y (ix3 b c hw)) := by
  refine (Ideal.multiReduction_add_single _ 0x00000000#32 Facts₀.reduces_S64x1024_S64 (.inl rfl) rfl (ix1 c)).trans ?_
  refine Finset.sum_congr rfl fun hw _ => ?_
  refine (Ideal.multiReduction_add_single _ 0x00000000#32 Facts₀.reduces_S32x64x1024_S64x1024 (.inl rfl) rfl _).trans ?_
  refine Finset.sum_congr rfl fun b _ => ?_
  exact congrArg y (lift_lift c hw b)

/-- The mean payload at channel `c`. -/
theorem pay2_at (x0 : FVec Ideal S32x64x1024 .f32) (c : Fin 64) : k0_pay2 (F := Ideal) x0 (ix1 c) = meanK x0 c := by
  unfold k0_pay2 k0_pay1
  rw [shapeCast_self]
  refine (mulf_apply _ _ _).trans ?_
  rw [broadcast_apply]
  exact congrArg (· * _) (rows_then_lanes x0 c)

/-- The stored mean row: the [64] vector viewed [1, 64]. -/
theorem pay3_at (x0 : FVec Ideal S32x64x1024 .f32) (u : Fin 1) (c : Fin 64) :
    k0_pay3 (F := Ideal) x0 (ix2 u c) = meanK x0 c := by
  unfold k0_pay3
  exact (shapeCast_a_1a_apply _ _ u c).trans (pay2_at x0 c)

/-- The per-channel mean spread back over the block, [64] → [1, 64, 1] → [32, 64, 1024], read at (b, c, lane). -/
theorem mean_spread_at (x0 : FVec Ideal S32x64x1024 .f32) (b : Fin 32) (c : Fin 64) (hw : Fin 1024) :
    broadcastTo S32x64x1024 (shapeCast S1x64x1 (k0_pay2 (F := Ideal) x0) Facts₀.shapeCasts_S64_S1x64x1)
        Facts₀.broadcasts_S1x64x1_S32x64x1024 (ix3 b c hw) = meanK x0 c := by
  refine (broadcastTo_apply _ _ (ix3 b c hw) (ix3 (0 : Fin 1) c (0 : Fin 1)) fun a => ?_).trans ?_
  · match a with
    | ⟨0, _⟩ => rfl
    | ⟨1, _⟩ => rfl
    | ⟨2, _⟩ => rfl
  · refine (shapeCast_apply _ _ (ix3 (0 : Fin 1) c (0 : Fin 1)) (ix1 c) ?_).trans (pay2_at x0 c)
    rw [Shape.rowMajor_val_one, Shape.rowMajor_val_three]
    show c.val = (0 * 64 + c.val) * 1 + 0
    omega

/-- The stored inverse-standard-deviation row. -/
theorem pay4_at (x0 : FVec Ideal S32x64x1024 .f32) (u : Fin 1) (c : Fin 64) :
    k0_pay4 (F := Ideal) x0 (ix2 u c) = istdK x0 c := by
  unfold k0_pay4
  refine (shapeCast_a_1a_apply _ _ u c).trans ?_
  show Ideal.rsqrt (_ * _ + _) = _
  unfold istdK varK
  refine congrArg (fun z => Ideal.rsqrt (z * _ + _)) ?_
  refine (rows_then_lanes _ c).trans ?_
  unfold lanesRows
  refine Finset.sum_congr rfl fun hw _ => Finset.sum_congr rfl fun b _ => ?_
  refine (mulf_apply _ _ _).trans ?_
  have hd : subf (k0_pay1 (F := Ideal) x0) (broadcastTo S32x64x1024 (shapeCast S1x64x1 (k0_pay2 (F := Ideal) x0) Facts₀.shapeCasts_S64_S1x64x1)
        Facts₀.broadcasts_S1x64x1_S32x64x1024) (ix3 b c hw) = x0 (ix3 b c hw) - meanK x0 c := by
    refine (subf_apply _ _ _).trans ?_
    rw [mean_spread_at]
    unfold k0_pay1
    rw [shapeCast_self]
  rw [hd]

theorem hz3 : (![0, 0, 0] : Fin 3 → Nat) = fun _ => 0 := funext fun a => by fin_cases a <;> rfl

/-- What the first kernel leaves in its [2, 64] staging buffer, from the whole input block: the table `statsK`. -/
theorem out0_1_eq (x0 : FVec Ideal S32x64x1024 .f32) : out0_1 (F := Ideal) x0 = statsK x0 := by
  unfold out0_1
  rw [View.ld_unit_zero (S := S32x64x1024) hz3]
  funext y
  refine View.canon_apply_of_pieces (Val := Elt Ideal) (statsK x0) _ ?_ y (cover0_1 _ _ y)
  intro p hp x
  rcases List.mem_cons.mp hp with rfl | hp
  · obtain ⟨u, c, rfl⟩ : ∃ (u : Fin 1) (c : Fin 64), x = ix2 u c := ⟨x 0, x 1, eq_ix2 x⟩
    show k0_pay4 (F := Ideal) x0 (ix2 u c) = statsK x0 (r0_2.emb (ix2 u c))
    rw [pay4_at]
    unfold statsK
    have h0 : ((r0_2.emb (ix2 u c)) 0).val = 1 + 1 * u.val := rfl
    rw [if_neg (by rw [h0]; omega)]
    refine congrArg (istdK x0) (Fin.ext ?_)
    show c.val = 0 + 1 * c.val
    omega
  · obtain rfl : p = ⟨r0_1, k0_pay3 (F := Ideal) x0⟩ := List.mem_singleton.mp hp
    obtain ⟨u, c, rfl⟩ : ∃ (u : Fin 1) (c : Fin 64), x = ix2 u c := ⟨x 0, x 1, eq_ix2 x⟩
    show k0_pay3 (F := Ideal) x0 (ix2 u c) = statsK x0 (r0_1.emb (ix2 u c))
    rw [pay3_at]
    unfold statsK
    have h0 : ((r0_1.emb (ix2 u c)) 0).val = 0 + 1 * u.val := rfl
    rw [if_pos (by rw [h0]; omega)]
    refine congrArg (meanK x0) (Fin.ext ?_)
    show c.val = 0 + 1 * c.val
    omega

end Cert.KStats
end
-- ==== Proof.KNorm.lean ====
/-
  The second kernel, read at an index. At a grid point whose second coordinate is the branch n it builds the weight column
  (k = n ? 1 : 0) for k < 16 by comparing lane numbers as words and converting the one-bit answer to a float, multiplies each
  [16, 64] parameter table by that column spread along the rows, and sums over the 16 rows: every term but the branch's own is
  a product with the extended real zero, so the sum is the table's row n (`select_at`). The stored value at (b, ·, c, lane) is then
  scale n c · ((x b c lane − mean c) · istd c) + shift n c, with mean and istd the two rows of the statistics table it loaded.
-/
import proofs.«104697_j7902739824826_1_alg».proof.Proof.KernelIdealFrame
import proofs.«104697_j7902739824826_1_alg».proof.Proof.BnSpec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KNorm

open Cert.KernelIdeal Cert.KernelIdeal.Gen Cert.KernelIdeal.GenP Idealize.ShloMosaic Idealize.ShloMosaic.ValueIdx

/-- A per-channel vector spread over a block, [64] → [1, 64, 1] → [16, 64, 1024], read at (b, c, lane): the vector at `c`. -/
theorem spread_at (v : FVec Ideal S64 .f32) (b : Fin 16) (c : Fin 64) (hw : Fin 1024) :
    broadcastTo S16x64x1024 (shapeCast S1x64x1 v Facts₀.shapeCasts_S64_S1x64x1)
        Facts₀.broadcasts_S1x64x1_S16x64x1024 (ix3 b c hw) = v (ix1 c) := by
  refine (broadcastTo_apply _ _ (ix3 b c hw) (ix3 (0 : Fin 1) c (0 : Fin 1)) fun a => ?_).trans ?_
  · match a with
    | ⟨0, _⟩ => rfl
    | ⟨1, _⟩ => rfl
    | ⟨2, _⟩ => rfl
  · refine shapeCast_apply _ _ (ix3 (0 : Fin 1) c (0 : Fin 1)) (ix1 c) ?_
    rw [Shape.rowMajor_val_one, Shape.rowMajor_val_three]
    show c.val = (0 * 64 + c.val) * 1 + 0
    omega

/-- The weight the second kernel gives row `k` of a parameter table at branch `n`: one on the branch's own row, zero elsewhere. -/
def onehot (n k : Fin 16) : EReal := if k = n then 1 else 0

/-- Comparing two lane numbers below 16 as 32-bit words and widening the one-bit answer. -/
theorem cmp_words : ∀ k n : Fin 16,
    (IntOp.cmpi .eq (BitVec.ofNat 32 k.val) (BitVec.ofNat 32 n.val)).setWidth 32 = if k = n then 1#32 else 0#32 := by
  decide

/-- The mask vector at lane `k`: the one-hot weight. -/
theorem mask_at (i : grid1.Coords) (n : Fin 16) (hn : (i 1).val = n.val) (k : Fin 16) :
    sitofp (F := Ideal) .f32 (extui 32 (cmpi .eq (shapeCast S16 (iota .tc S16x1 32 [0] Facts₀.iota_S16x1_d0_w32) Facts₀.shapeCasts_S16x1_S16)
        (broadcast S16 (BitVec.ofNat 32 (i 1).val))) Facts₀.natLt_1_32) (ix1 k) = onehot n k := by
  show ((((IntOp.cmpi .eq (shapeCast S16 (iota .tc S16x1 32 [0] Facts₀.iota_S16x1_d0_w32) Facts₀.shapeCasts_S16x1_S16 (ix1 k))
      (BitVec.ofNat 32 (i 1).val)).setWidth 32).toInt : ℝ) : EReal) = onehot n k
  have e : shapeCast S16 (iota .tc S16x1 32 [0] Facts₀.iota_S16x1_d0_w32) Facts₀.shapeCasts_S16x1_S16 (ix1 k) = BitVec.ofNat 32 k.val := by
    refine (shapeCast_apply _ _ (ix1 k) (ix2 k (0 : Fin 1)) ?_).trans ?_
    · rw [Shape.rowMajor_val_one, Shape.rowMajor_val_two]
      show k.val * 1 + 0 = k.val
      omega
    · exact iota_single_apply .tc S16x1 32 0 _ _
  rw [e, hn, cmp_words]
  unfold onehot
  split
  · norm_num
  · norm_num

/-- A sum weighted by the one-hot weights keeps the branch's own term: every other term is a product with zero. -/
theorem sum_onehot (n : Fin 16) (f : Fin 16 → EReal) : ∑ k : Fin 16, f k * onehot n k = f n := by
  rw [Finset.sum_eq_single n]
  · simp [onehot]
  · intro k _ hk; simp [onehot, hk]
  · intro h; exact absurd (Finset.mem_univ n) h

/-- A [16, 64] table times the mask spread along its rows, summed over the rows, read at channel `c`: the table's row `n`. -/
theorem select_at (tbl : FVec Ideal S16x64 .f32) (msk : FVec Ideal S16 .f32) (n : Fin 16) (hm : ∀ k, msk (ix1 k) = onehot n k) (c : Fin 64) :
    multiReduction (F := Ideal) .add [0] S64
        (mulf tbl (broadcastTo S16x64 (shapeCast S16x1 msk Facts₀.shapeCasts_S16_S16x1) Facts₀.broadcasts_S16x1_S16x64))
        0x00000000#32 Facts₀.reduces_S16x64_S64 (.inl rfl) rfl (ix1 c) = tbl (ix2 n c) := by
  refine (Ideal.multiReduction_add_single _ 0x00000000#32 Facts₀.reduces_S16x64_S64 (.inl rfl) rfl (ix1 c)).trans ?_
  refine Eq.trans (Finset.sum_congr rfl fun k _ => ?_) (sum_onehot n (fun k => tbl (ix2 k c)))
  have hl : Facts₀.reduces_S16x64_S64.lift (ix1 c) k = ix2 k c :=
    funext fun a => Fin.ext (by match a with | ⟨0, _⟩ => rfl | ⟨1, _⟩ => rfl)
  rw [hl]
  refine (mulf_apply _ _ _).trans ?_
  refine congrArg (tbl (ix2 k c) * ·) ?_
  refine (broadcastTo_apply _ _ (ix2 k c) (ix2 k (0 : Fin 1)) fun a => ?_).trans ?_
  · match a with
    | ⟨0, _⟩ => rfl
    | ⟨1, _⟩ => rfl
  · refine (shapeCast_apply _ _ (ix2 k (0 : Fin 1)) (ix1 k) ?_).trans (hm k)
    rw [Shape.rowMajor_val_one, Shape.rowMajor_val_two]
    show k.val = k.val * 1 + 0
    omega

/-- The second kernel's stored value at (b, ·, c, lane) of its [16, 1, 64, 1024] block, at a grid point whose second coordinate is
    the branch `n`: the branch's scale times the normalized entry, plus the branch's shift. `s0` and `s1` are the two rows of the
    statistics table as loaded. -/
theorem pay1_at (i : grid1.Coords) (n : Fin 16) (hn : (i 1).val = n.val)
    (x0 : FVec Ideal S16x64x1024 .f32) (s0 s1 : FVec Ideal S1x64 .f32) (gm bt : FVec Ideal S16x64 .f32)
    (b : Fin 16) (u : Fin 1) (c : Fin 64) (hw : Fin 1024) :
    k1_pay1 (F := Ideal) i x0 s0 s1 gm bt (ix4 b u c hw)
      = gm (ix2 n c) * ((x0 (ix3 b c hw) - s0 (ix2 (0 : Fin 1) c)) * s1 (ix2 (0 : Fin 1) c)) + bt (ix2 n c) := by
  unfold k1_pay1
  refine (shapeCast_apply _ _ (ix4 b u c hw) (ix3 b c hw) ?_).trans ?_
  · rw [Shape.rowMajor_val_three, Shape.rowMajor_val_four]
    show (b.val * 64 + c.val) * 1024 + hw.val = ((b.val * 1 + u.val) * 64 + c.val) * 1024 + hw.val
    omega
  refine (addf_apply _ _ _).trans ?_
  refine congrArg₂ (· + ·) ?_ ?_
  · refine (mulf_apply _ _ _).trans ?_
    refine congrArg₂ (· * ·) ?_ ?_
    · exact (spread_at _ b c hw).trans (select_at gm _ n (mask_at i n hn) c)
    · refine (mulf_apply _ _ _).trans ?_
      refine congrArg₂ (· * ·) ?_ ?_
      · refine (subf_apply _ _ _).trans ?_
        refine congrArg₂ (· - ·) ?_ ?_
        · rw [shapeCast_self]
        · exact (spread_at _ b c hw).trans (shapeCast_1a_a_apply _ _ c)
      · exact (spread_at _ b c hw).trans (shapeCast_1a_a_apply _ _ c)
  · exact (spread_at _ b c hw).trans (select_at bt _ n (mask_at i n hn) c)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What the second kernel leaves in its output staging buffer at (b, ·, c, lane), from its four input blocks: `x1` is the
    [2, 64] statistics table (row 0 the means, row 1 the inverse standard deviations), `x2` and `x3` the scale and shift tables. -/
theorem out1_4_at (i : grid1.Coords) (n : Fin 16) (hn : (i 1).val = n.val)
    (x0 : FVec Ideal S16x64x1024 .f32) (x1 : FVec Ideal S2x64 .f32) (x2 x3 : FVec Ideal S16x64 .f32)
    (b : Fin 16) (u : Fin 1) (c : Fin 64) (hw : Fin 1024) :
    out1_4 (F := Ideal) i x0 x1 x2 x3 (ix4 b u c hw)
      = x2 (ix2 n c) * ((x0 (ix3 b c hw) - x1 (ix2 (0 : Fin 2) c)) * x1 (ix2 (1 : Fin 2) c)) + x3 (ix2 n c) := by
  unfold out1_4
  rw [View.canon_unit_zero hz4]
  simp only [View.ld_unit_zero (S := S16x64x1024) hz3, View.ld_unit_zero (S := S16x64) hz2]
  refine (pay1_at i n hn _ _ _ _ _ b u c hw).trans ?_
  have k0 : r1_1.idx (ix2 (0 : Fin 1) c) = ix2 (0 : Fin 2) c :=
    funext fun a => Fin.ext (by
      match a with
      | ⟨0, _⟩ => rfl
      | ⟨1, _⟩ => show 0 + 1 * c.val = c.val; omega)
  have k1 : r1_2.idx (ix2 (0 : Fin 1) c) = ix2 (1 : Fin 2) c :=
    funext fun a => Fin.ext (by
      match a with
      | ⟨0, _⟩ => rfl
      | ⟨1, _⟩ => show 0 + 1 * c.val = c.val; omega)
  show x2 (ix2 n c) * ((x0 (ix3 b c hw) - x1 (r1_1.idx (ix2 (0 : Fin 1) c))) * x1 (r1_2.idx (ix2 (0 : Fin 1) c))) + x3 (ix2 n c) = _
  rw [k0, k1]

end Cert.KNorm
end
-- ==== Proof.KFold.lean ====
/-
  The 1024 lanes are the 32 × 32 image positions in row-major order. So the first kernel's sums (over the batch rows inside, over
  the lanes outside) are the specification's sums over batch, height and width: a sum over `Fin 1024` is the double sum over
  `Fin 32 × Fin 32` through the bijection (h, w) ↦ 32 h + w, and sums over finite sets commute. With the folded input read back
  at (b, c, h, w), the first kernel's mean, variance and inverse standard deviation of the folded input are the specification's
  of the input.
-/
import proofs.«104697_j7902739824826_1_alg».proof.Proof.KStats
import proofs.«104697_j7902739824826_1_alg».proof.Proof.BnSpec
import Idealize.ShloMosaic.Lib.ValueIdx
import Idealize.ShloMosaic.Lib.Pipeline.Value

noncomputable section

open scoped BigOperators

namespace Cert.KFold

open Cert.KernelIdeal Cert.KernelIdeal.Gen Idealize.ShloMosaic Idealize.ShloMosaic.ValueIdx Cert.KStats

/-- Position (h, w) of a 32 × 32 image as one of 1024 lanes, row-major. -/
abbrev lane (h w : Fin 32) : Fin 1024 := ⟨h.val * 32 + w.val, by have := h.isLt; have := w.isLt; omega⟩

/-- A sum over the 1024 lanes is the double sum over the image's rows and columns. -/
theorem sum_lanes (g : Fin 1024 → EReal) : ∑ hw : Fin 1024, g hw = ∑ h : Fin 32, ∑ w : Fin 32, g (lane h w) := by
  have e := Equiv.sum_comp (finProdFinEquiv : Fin 32 × Fin 32 ≃ Fin (32 * 32)) g
  rw [← e, Fintype.sum_prod_type]
  refine Finset.sum_congr rfl fun h _ => Finset.sum_congr rfl fun w _ => ?_
  refine congrArg g (Fin.ext ?_)
  show w.val + 32 * h.val = h.val * 32 + w.val
  omega

/-- The first kernel's order of summation (lanes outside, batch rows inside) against the specification's (batch, height, width):
    sums over finite index sets commute. -/
theorem lanesRows_eq (f : Fin 32 → Fin 1024 → EReal) :
    lanesRows f = Cert.BnSpec.chanSum (fun b h w => f b (lane h w)) := by
  unfold lanesRows Cert.BnSpec.chanSum
  rw [Finset.sum_comm]
  exact Finset.sum_congr rfl fun b _ => sum_lanes (f b)

/-- The input folded to [32, 64, 1024], read at (b, c, lane of (h, w)): the input at (b, c, h, w). -/
theorem fold_at (x : FVec Ideal S32x64x32x32 .f32) (B : Fin 32) (C : Fin 64) (H W : Fin 32) :
    shapeCast S32x64x1024 x Facts₀.shapeCasts_S32x64x32x32_S32x64x1024 (ix3 B C (lane H W)) = x (ix4 B C H W) := by
  refine shapeCast_apply _ _ _ _ ?_
  rw [Shape.rowMajor_val_four, Shape.rowMajor_val_three]
  show ((B.val * 64 + C.val) * 32 + H.val) * 32 + W.val = (B.val * 64 + C.val) * 1024 + (H.val * 32 + W.val)
  omega

/-- The first kernel's mean of the folded input is the specification's mean of the input. -/
theorem meanK_fold (x : FVec Ideal S32x64x32x32 .f32) (C : Fin 64) :
    meanK (shapeCast S32x64x1024 x Facts₀.shapeCasts_S32x64x32x32_S32x64x1024) C = Cert.BnSpec.mean x C := by
  unfold meanK Cert.BnSpec.mean
  refine congrArg (· * _) ?_
  refine (lanesRows_eq _).trans ?_
  unfold Cert.BnSpec.chanSum
  exact Finset.sum_congr rfl fun b _ => Finset.sum_congr rfl fun h _ => Finset.sum_congr rfl fun w _ => fold_at x b C h w

/-- Likewise the variance … -/
theorem varK_fold (x : FVec Ideal S32x64x32x32 .f32) (C : Fin 64) :
    varK (shapeCast S32x64x1024 x Facts₀.shapeCasts_S32x64x32x32_S32x64x1024) C = Cert.BnSpec.var x C := by
  unfold varK Cert.BnSpec.var
  refine congrArg (· * _) ?_
  refine (lanesRows_eq _).trans ?_
  unfold Cert.BnSpec.chanSum
  refine Finset.sum_congr rfl fun b _ => Finset.sum_congr rfl fun h _ => Finset.sum_congr rfl fun w _ => ?_
  show (_ - _) * (_ - _) = _
  rw [fold_at x b C h w, meanK_fold x C]

/-- … and the inverse standard deviation. -/
theorem istdK_fold (x : FVec Ideal S32x64x32x32 .f32) (C : Fin 64) :
    istdK (shapeCast S32x64x1024 x Facts₀.shapeCasts_S32x64x32x32_S32x64x1024) C = Cert.BnSpec.istd x C := by
  unfold istdK Cert.BnSpec.istd
  rw [varK_fold x C]

end Cert.KFold
end
-- ==== Proof.KValue.lean ====
/-
  From the two kernels' blocks to the program's result. The host reshape before the first region folds the input to
  [32, 64, 1024]. The first region has one grid point whose blocks are whole arrays, so after it the [2, 64] statistics array
  is the first kernel's table of the folded input, and the folded input and the two parameter tables are as they were. The
  second region's 32 grid points (2 batch halves × 16 branches) each write the [16, 1, 64, 1024] block at block index
  (half, branch, 0, 0) of the [32, 16, 64, 1024] output; the input block moves with the batch half and the three tables are
  read whole. Each block is the restriction of ONE function of the arrays the region found (`normK`), and the blocks tile the
  output, so the output array is that function. The closing reshape merges (branch, channel) into 1024 output channels and
  unfolds the lanes; read at an index, with the first kernel's statistics identified with the specification's, the result is
  the specification's function of the three arguments.
-/
import proofs.«104697_j7902739824826_1_alg».proof.Proof.KernelIdealFrame
import proofs.«104697_j7902739824826_1_alg».proof.Proof.KStats
import proofs.«104697_j7902739824826_1_alg».proof.Proof.KNorm
import proofs.«104697_j7902739824826_1_alg».proof.Proof.KFold
import proofs.«104697_j7902739824826_1_alg».proof.Proof.BnSpec
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

open scoped BigOperators

namespace Cert.KValue

open Cert.KernelIdeal Cert.KernelIdeal.Gen Cert.KernelIdeal.GenP Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The input viewed [32, 64, 1024]: height and width folded into one axis of 1024 lanes. -/
abbrev xr (c : Dev nD) : FVec Ideal S32x64x1024 .f32 :=
  shapeCast S32x64x1024 (m ((c : Thread nD τ).loc main_arg0)) Facts₀.shapeCasts_S32x64x32x32_S32x64x1024

/-- The first region finds the folded input in its input window's array. -/
theorem V1_v0 (c : Dev nD) : V1 m ρ c main_v0 = xr m c := by
  show StableHlo.after hostOps0 (W0 m ρ c) (Proc.devRef .tc main_v0) = _
  after_results
  rfl

/-- The first region's one input block is the whole array. -/
theorem iblk0_whole (V : (c : Dev nD) → (b : Ref sig .tc) → Buf (Elt Ideal) ((c : Thread nD τ).loc b)) (c : Dev nD) (t : Fin cfg0.N) :
    iblk0 V c 0 t = V c main_v0 := by
  unfold iblk0
  funext y
  show V c main_v0 (((cfg0.win 0).blk t).view.emb y) = V c main_v0 y
  refine congrArg _ (funext fun a => Fin.ext ?_)
  match a with
  | ⟨0, _⟩ => show 0 * 32 + 1 * (y 0).val = (y 0).val; omega
  | ⟨1, _⟩ => show 0 * 64 + 1 * (y 1).val = (y 1).val; omega
  | ⟨2, _⟩ => show 0 * 1024 + 1 * (y 2).val = (y 2).val; omega

/-- What the first region's one grid point writes back: the statistics table of the folded input. -/
theorem flushed0_1_eq (c : Dev nD) (t : Fin cfg0.N) :
    (dat0 (V1 m ρ) c).flushed 1 t = ((cfg0.win 1).blk t).view.read (Elt Ideal) (Cert.KStats.statsK (xr m c)) := by
  show (cfg0.win 1).cut (grid0.coords t) ((dat0 (V1 m ρ) c).after 1 t) = _
  rw [after0_1, iblk0_whole, V1_v0, Cert.KStats.out0_1_eq]
  funext j
  show Cert.KStats.statsK (xr m c) j = Cert.KStats.statsK (xr m c) (((cfg0.win 1).blk t).view.emb j)
  refine congrArg _ (funext fun a => Fin.ext ?_)
  match a with
  | ⟨0, _⟩ => show (j 0).val = 0 * 2 + 1 * (j 0).val; omega
  | ⟨1, _⟩ => show (j 1).val = 0 * 64 + 1 * (j 1).val; omega

theorem cover0_1 (i : S2x64.Idx) : ∃ t : Fin cfg0.N, (cfg0.win 1).flush t = true ∧ i ∈ ((cfg0.win 1).blk t).view.set := by
  refine ⟨t0_0, flush0_1 t0_0, ?_⟩
  show i ∈ ((View.whole main_v1).slice (win0_1.rect t0_0)).set
  rw [View.set_slice_whole, Rect.mem_set_unit]
  intro a
  match a with
  | ⟨0, _⟩ => show 0 * 2 ≤ (i 0).val ∧ (i 0).val < 0 * 2 + 2; have h : (i 0).val < 2 := (i 0).isLt; omega
  | ⟨1, _⟩ => show 0 * 64 ≤ (i 1).val ∧ (i 1).val < 0 * 64 + 64; have h : (i 1).val < 64 := (i 1).isLt; omega

/-- After the first region the statistics array holds the table. -/
theorem stats_array (c : Dev nD) : (dat0 (V1 m ρ) c).arrAt 1 cfg0.N = Cert.KStats.statsK (xr m c) :=
  (dat0 (V1 m ρ) c).arrAt_eq_of_cover 1 _ (fun t _ => flushed0_1_eq m ρ c t) (cover0_1)

/-! ## What the second region finds -/

theorem V2_v1 (c : Dev nD) : V2 m ρ c main_v1 = Cert.KStats.statsK (xr m c) :=
  (W2_arr m ρ c 1).trans (stats_array m ρ c)

theorem V2_v0 (c : Dev nD) : V2 m ρ c main_v0 = xr m c :=
  ((W2_arr m ρ c 0).trans (((dat0 (V1 m ρ) c).arrAt_in 0 rfl _).trans (A_eq0 (V1 m ρ) c 0))).trans (V1_v0 m ρ c)

theorem V2_arg1 (c : Dev nD) : V2 m ρ c main_arg1 = m ((c : Thread nD τ).loc main_arg1) := by
  refine (W2_of_ne m ρ c main_arg1 (by decide)).trans ?_
  show StableHlo.after hostOps0 (W0 m ρ c) (Proc.devRef .tc main_arg1) = _
  after_results

theorem V2_arg2 (c : Dev nD) : V2 m ρ c main_arg2 = m ((c : Thread nD τ).loc main_arg2) := by
  refine (W2_of_ne m ρ c main_arg2 (by decide)).trans ?_
  show StableHlo.after hostOps0 (W0 m ρ c) (Proc.devRef .tc main_arg2) = _
  after_results

/-! ## The second region's array -/

/-- One entry of the normalized-affine array, from the folded input, the statistics table and the two parameter tables. -/
def normAt (x : FVec Ideal S32x64x1024 .f32) (st : FVec Ideal S2x64 .f32) (gm bt : FVec Ideal S16x64 .f32)
    (B : Fin 32) (N : Fin 16) (C : Fin 64) (L : Fin 1024) : EReal :=
  gm (ix2 N C) * ((x (ix3 B C L) - st (ix2 (0 : Fin 2) C)) * st (ix2 (1 : Fin 2) C)) + bt (ix2 N C)

/-- The [32, 16, 64, 1024] array the second region writes. -/
def normK (x : FVec Ideal S32x64x1024 .f32) (st : FVec Ideal S2x64 .f32) (gm bt : FVec Ideal S16x64 .f32) :
    FVec Ideal S32x16x64x1024 .f32 := fun k =>
  normAt x st gm bt ⟨(k 0).val, (k 0).isLt⟩ ⟨(k 1).val, (k 1).isLt⟩ ⟨(k 2).val, (k 2).isLt⟩ ⟨(k 3).val, (k 3).isLt⟩

theorem normK_at (x : FVec Ideal S32x64x1024 .f32) (st : FVec Ideal S2x64 .f32) (gm bt : FVec Ideal S16x64 .f32)
    (k : S32x16x64x1024.Idx) (B : Fin 32) (N : Fin 16) (C : Fin 64) (L : Fin 1024)
    (h0 : (k 0).val = B.val) (h1 : (k 1).val = N.val) (h2 : (k 2).val = C.val) (h3 : (k 3).val = L.val) :
    normK x st gm bt k = normAt x st gm bt B N C L := by
  unfold normK
  have e0 : (⟨(k 0).val, (k 0).isLt⟩ : Fin 32) = B := Fin.ext h0
  have e1 : (⟨(k 1).val, (k 1).isLt⟩ : Fin 16) = N := Fin.ext h1
  have e2 : (⟨(k 2).val, (k 2).isLt⟩ : Fin 64) = C := Fin.ext h2
  have e3 : (⟨(k 3).val, (k 3).isLt⟩ : Fin 1024) = L := Fin.ext h3
  rw [e0, e1, e2, e3]

/-- The printed index maps over the 32 grid points: the input block moves with the output block along the batch axis and every
    other block index is zero; the output's branch index is the point's second coordinate. -/
theorem idx_facts1 : ∀ t : Fin cfg1.N,
    win1_0.index t (0 : Fin 3) = win1_4.index t (0 : Fin 4) ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (2 : Fin 4) = 0 ∧ win1_4.index t (3 : Fin 4) = 0
    ∧ ((grid1.coords t) 1).val = win1_4.index t (1 : Fin 4)
    ∧ win1_4.index t (0 : Fin 4) ≤ 1 ∧ win1_4.index t (1 : Fin 4) ≤ 15 :=
  (by decide +kernel : ∀ t : Fin grid1.N, _)

/-- Every (batch half, branch) pair is some grid point's output block. -/
theorem idx_onto1 : ∀ (q0 : Fin 2) (q1 : Fin 16), ∃ t : Fin cfg1.N, win1_4.index t = ![q0.val, q1.val, 0, 0] :=
  (by decide +kernel : ∀ (q0 : Fin 2) (q1 : Fin 16), ∃ t : Fin grid1.N, win1_4.index t = ![q0.val, q1.val, 0, 0])

set_option maxHeartbeats 1000000 in
/-- What grid point `t` of the second region writes back is its block of the normalized-affine array. -/
theorem flushed1_4_eq (c : Dev nD) (t : Fin cfg1.N) :
    (dat1 (V2 m ρ) c).flushed 4 t = ((cfg1.win 4).blk t).view.read (Elt Ideal)
      (normK (V2 m ρ c main_v0) (V2 m ρ c main_v1) (V2 m ρ c main_arg1) (V2 m ρ c main_arg2)) := by
  show (cfg1.win 4).cut (grid1.coords t) ((dat1 (V2 m ρ) c).after 4 t) = _
  rw [after1_4]
  funext j
  obtain ⟨b, u, cc, hw, rfl⟩ : ∃ (b : Fin 16) (u : Fin 1) (cc : Fin 64) (hw : Fin 1024), j = ix4 b u cc hw :=
    ⟨j 0, j 1, j 2, j 3, eq_ix4 j⟩
  obtain ⟨e00, e01, e02, e10, e11, e20, e21, e30, e31, e42, e43, hc1, hb0, hb1⟩ := idx_facts1 t
  have hu : u.val = 0 := by omega
  refine (Cert.KNorm.out1_4_at (grid1.coords t) ⟨win1_4.index t (1 : Fin 4), by omega⟩ hc1
    (iblk1 (V2 m ρ) c 0 t) (iblk1 (V2 m ρ) c 1 t) (iblk1 (V2 m ρ) c 2 t) (iblk1 (V2 m ρ) c 3 t) b u cc hw).trans ?_
  refine Eq.trans ?_ (normK_at _ _ _ _ (((cfg1.win 4).blk t).view.emb (ix4 b u cc hw))
    ⟨win1_4.index t (0 : Fin 4) * 16 + b.val, by omega⟩ ⟨win1_4.index t (1 : Fin 4), by omega⟩ cc hw ?_ ?_ ?_ ?_).symm
  · unfold normAt
    have r0 : iblk1 (V2 m ρ) c 0 t (ix3 b cc hw)
        = V2 m ρ c main_v0 (ix3 (⟨win1_4.index t (0 : Fin 4) * 16 + b.val, by omega⟩ : Fin 32) cc hw) :=
      congrArg (V2 m ρ c main_v0) (funext fun a => Fin.ext (by
        match a with
        | ⟨0, _⟩ => show win1_0.index t (0 : Fin 3) * 16 + 1 * b.val = win1_4.index t (0 : Fin 4) * 16 + b.val; omega
        | ⟨1, _⟩ => show win1_0.index t (1 : Fin 3) * 64 + 1 * cc.val = cc.val; omega
        | ⟨2, _⟩ => show win1_0.index t (2 : Fin 3) * 1024 + 1 * hw.val = hw.val; omega))
    have r1 : ∀ r : Fin 2, iblk1 (V2 m ρ) c 1 t (ix2 r cc) = V2 m ρ c main_v1 (ix2 r cc) := fun r =>
      congrArg (V2 m ρ c main_v1) (funext fun a => Fin.ext (by
        match a with
        | ⟨0, _⟩ => show win1_1.index t (0 : Fin 2) * 2 + 1 * r.val = r.val; omega
        | ⟨1, _⟩ => show win1_1.index t (1 : Fin 2) * 64 + 1 * cc.val = cc.val; omega))
    have r2 : ∀ n : Fin 16, iblk1 (V2 m ρ) c 2 t (ix2 n cc) = V2 m ρ c main_arg1 (ix2 n cc) := fun n =>
      congrArg (V2 m ρ c main_arg1) (funext fun a => Fin.ext (by
        match a with
        | ⟨0, _⟩ => show win1_2.index t (0 : Fin 2) * 16 + 1 * n.val = n.val; omega
        | ⟨1, _⟩ => show win1_2.index t (1 : Fin 2) * 64 + 1 * cc.val = cc.val; omega))
    have r3 : ∀ n : Fin 16, iblk1 (V2 m ρ) c 3 t (ix2 n cc) = V2 m ρ c main_arg2 (ix2 n cc) := fun n =>
      congrArg (V2 m ρ c main_arg2) (funext fun a => Fin.ext (by
        match a with
        | ⟨0, _⟩ => show win1_3.index t (0 : Fin 2) * 16 + 1 * n.val = n.val; omega
        | ⟨1, _⟩ => show win1_3.index t (1 : Fin 2) * 64 + 1 * cc.val = cc.val; omega))
    rw [r0, r1, r1, r2, r3]
  · show win1_4.index t (0 : Fin 4) * 16 + 1 * b.val = win1_4.index t (0 : Fin 4) * 16 + b.val; omega
  · show win1_4.index t (1 : Fin 4) * 1 + 1 * u.val = win1_4.index t (1 : Fin 4); omega
  · show win1_4.index t (2 : Fin 4) * 64 + 1 * cc.val = cc.val; omega
  · show win1_4.index t (3 : Fin 4) * 1024 + 1 * hw.val = hw.val; omega

/-- An index of the output array is in point `t`'s block iff each coordinate is in the block's range on its axis. -/
theorem mem_blk1_4 (t : Fin cfg1.N) (i : S32x16x64x1024.Idx) :
    i ∈ ((cfg1.win 4).blk t).view.set ↔ ∀ a : Fin 4, win1_4.index t a * S16x1x64x1024.size a ≤ (i a).val
      ∧ (i a).val < win1_4.index t a * S16x1x64x1024.size a + S16x1x64x1024.size a := by
  show i ∈ ((View.whole main_v2).slice (win1_4.rect t)).set ↔ _
  rw [View.set_slice_whole, Rect.mem_set_unit]
  exact Iff.rfl

/-- The 32 blocks (two batch halves by sixteen branches) cover the output array: entry (b, n, c, lane) is in the block of the point
    whose block index is (b / 16, n, 0, 0). -/
theorem cover1_4 (i : S32x16x64x1024.Idx) :
    ∃ t : Fin cfg1.N, (cfg1.win 4).flush t = true ∧ i ∈ ((cfg1.win 4).blk t).view.set := by
  have hi0 : (i 0).val < 32 := (i 0).isLt
  have hi1 : (i 1).val < 16 := (i 1).isLt
  have hi2 : (i 2).val < 64 := (i 2).isLt
  have hi3 : (i 3).val < 1024 := (i 3).isLt
  obtain ⟨t, ht⟩ := idx_onto1 ⟨(i 0).val / 16, by omega⟩ ⟨(i 1).val, hi1⟩
  have q0 : win1_4.index t (0 : Fin 4) = (i 0).val / 16 := congrFun ht 0
  have q1 : win1_4.index t (1 : Fin 4) = (i 1).val := congrFun ht 1
  have q2 : win1_4.index t (2 : Fin 4) = 0 := congrFun ht 2
  have q3 : win1_4.index t (3 : Fin 4) = 0 := congrFun ht 3
  refine ⟨t, flush1_4 t, ?_⟩
  rw [mem_blk1_4]
  intro a
  match a with
  | ⟨0, _⟩ => show win1_4.index t (0 : Fin 4) * 16 ≤ (i 0).val ∧ (i 0).val < win1_4.index t (0 : Fin 4) * 16 + 16; omega
  | ⟨1, _⟩ => show win1_4.index t (1 : Fin 4) * 1 ≤ (i 1).val ∧ (i 1).val < win1_4.index t (1 : Fin 4) * 1 + 1; omega
  | ⟨2, _⟩ => show win1_4.index t (2 : Fin 4) * 64 ≤ (i 2).val ∧ (i 2).val < win1_4.index t (2 : Fin 4) * 64 + 64; omega
  | ⟨3, _⟩ => show win1_4.index t (3 : Fin 4) * 1024 ≤ (i 3).val ∧ (i 3).val < win1_4.index t (3 : Fin 4) * 1024 + 1024; omega

/-- After the second region its output array is the normalized-affine array of what the region found. -/
theorem out_array (c : Dev nD) : (dat1 (V2 m ρ) c).arrAt 4 cfg1.N
    = normK (V2 m ρ c main_v0) (V2 m ρ c main_v1) (V2 m ρ c main_arg1) (V2 m ρ c main_arg2) :=
  (dat1 (V2 m ρ) c).arrAt_eq_of_cover 4 _ (fun t _ => flushed1_4_eq m ρ c t) cover1_4

/-- … that is, of the folded input, its statistics table and the two parameter tables as launched. -/
theorem W3_v2 (c : Dev nD) : W3 m ρ c (Proc.devRef .tc main_v2)
    = normK (xr m c) (Cert.KStats.statsK (xr m c)) (m ((c : Thread nD τ).loc main_arg1)) (m ((c : Thread nD τ).loc main_arg2)) := by
  refine (W3_arr m ρ c 4).trans ((out_array m ρ c).trans ?_)
  rw [V2_v0, V2_v1, V2_arg1, V2_arg2]

/-- The program's result is that array with the branch and channel axes merged and the lanes unfolded to 32 × 32. -/
theorem W4_v3 (c : Dev nD) : W4 m ρ c (Proc.devRef .tc main_v3)
    = shapeCast S32x1024x32x32 (W3 m ρ c (Proc.devRef .tc main_v2)) Facts₀.shapeCasts_S32x16x64x1024_S32x1024x32x32 := by
  show StableHlo.after hostOps2 (W3 m ρ c) (Proc.devRef .tc main_v3) = _
  after_results
  rfl

/-- THE KERNEL PROGRAM'S RESULT is the specification's function of the three arguments. -/
theorem result_eq (c : Dev nD) : W4 m ρ c (Proc.devRef .tc main_v3)
    = Cert.BnSpec.result (m ((c : Thread nD τ).loc main_arg0)) (m ((c : Thread nD τ).loc main_arg1)) (m ((c : Thread nD τ).loc main_arg2)) := by
  rw [W4_v3, W3_v2]
  funext j
  have hj0 : (j 0).val < 32 := (j 0).isLt
  have hj1 : (j 1).val < 1024 := (j 1).isLt
  have hj2 : (j 2).val < 32 := (j 2).isLt
  have hj3 : (j 3).val < 32 := (j 3).isLt
  refine (shapeCast_apply _ _ j (ix4 (⟨(j 0).val, hj0⟩ : Fin 32) (⟨(j 1).val / 64, by omega⟩ : Fin 16)
    (⟨(j 1).val % 64, by omega⟩ : Fin 64) (Cert.KFold.lane ⟨(j 2).val, hj2⟩ ⟨(j 3).val, hj3⟩)) ?_).trans ?_
  · rw [Shape.rowMajor_val_four, Shape.rowMajor_val_four]
    show (((j 0).val * 16 + (j 1).val / 64) * 64 + (j 1).val % 64) * 1024 + ((j 2).val * 32 + (j 3).val)
      = (((j 0).val * 1024 + (j 1).val) * 32 + (j 2).val) * 32 + (j 3).val
    omega
  · refine (normK_at _ _ _ _ _ (⟨(j 0).val, hj0⟩ : Fin 32) (⟨(j 1).val / 64, by omega⟩ : Fin 16)
      (⟨(j 1).val % 64, by omega⟩ : Fin 64) (Cert.KFold.lane ⟨(j 2).val, hj2⟩ ⟨(j 3).val, hj3⟩) rfl rfl rfl rfl).trans ?_
    unfold normAt Cert.BnSpec.result Cert.BnSpec.branch
    have s0 : ∀ C : Fin 64, Cert.KStats.statsK (xr m c) (ix2 (0 : Fin 2) C) = Cert.BnSpec.mean (m ((c : Thread nD τ).loc main_arg0)) C :=
      fun C => Cert.KFold.meanK_fold _ C
    have s1 : ∀ C : Fin 64, Cert.KStats.statsK (xr m c) (ix2 (1 : Fin 2) C) = Cert.BnSpec.istd (m ((c : Thread nD τ).loc main_arg0)) C :=
      fun C => Cert.KFold.istdK_fold _ C
    have e : xr m c (ix3 (⟨(j 0).val, hj0⟩ : Fin 32) (⟨(j 1).val % 64, by omega⟩ : Fin 64) (Cert.KFold.lane ⟨(j 2).val, hj2⟩ ⟨(j 3).val, hj3⟩))
        = m ((c : Thread nD τ).loc main_arg0) (ix4 (⟨(j 0).val, hj0⟩ : Fin 32) (⟨(j 1).val % 64, by omega⟩ : Fin 64) (⟨(j 2).val, hj2⟩ : Fin 32) (⟨(j 3).val, hj3⟩ : Fin 32)) :=
      Cert.KFold.fold_at _ _ _ _ _
    rw [s0, s1, e]

end Cert.KValue
end
-- ==== Proof.BnConsts.lean ====
/-
  The float constants the two programs spell, as the extended reals their patterns denote, and the two scalar laws that
  join the programs' spellings of a mean: the kernel multiplies a sum by the pattern of 2^-15, the reference divides it by
  the pattern of 32768 = 2^15, and on the extended reals a quotient by a nonzero real IS the product with its reciprocal
  (at the infinities too). Also the one-hot weight the kernel selects a row of its parameter tables with: an integer
  0 or 1 converted to a float is the extended real 0 or 1.
-/
import Idealize.ShloMosaic.PureOps.Ideal
import Idealize.ShloMosaic.PureOps.Ideal.Laws

noncomputable section

namespace Cert.BnConsts

open Idealize.ShloMosaic

/-- The pattern `0x38000000` denotes 2^-15 = 1/32768. -/
theorem ofBits_inv_count : Ideal.ofBits .f32 0x38000000#32 = ((1 / 32768 : ℝ) : EReal) := by
  simp [Ideal.ofBits, Ideal.ieee, -EReal.coe_mul]; norm_num

/-- The pattern `0x47000000` denotes 32768. -/
theorem ofBits_count : Ideal.ofBits .f32 0x47000000#32 = ((32768 : ℝ) : EReal) := by
  simp [Ideal.ofBits, Ideal.ieee, -EReal.coe_mul]; norm_num

/-- A quotient by the count is the product with the reciprocal's pattern, on every extended real. -/
theorem div_count (x : EReal) :
    Ideal.div x (Ideal.ofBits .f32 0x47000000#32) = x * Ideal.ofBits .f32 0x38000000#32 := by
  rw [ofBits_count, ofBits_inv_count, Ideal.div_coe (by norm_num : (32768 : ℝ) ≠ 0)]

end Cert.BnConsts

end
-- ==== Proof.RefValue.lean ====
/-
  The reference program's result, read at the extended reals, is the specification's result.

  The reference computes, per channel, the sum of the input over batch, height and width (one sum over three axes of
  the [32, 64, 32, 32] array into a [64] array), divides it by 32768 to get the mean, subtracts the mean, squares, sums
  again over the same three axes and divides by 32768 to get the biased variance, adds the stabilizer and takes the
  reciprocal square root. It then normalizes the input, multiplies by each of the 16 branches' scale and adds its shift
  in a five-axis array [32, 16, 64, 32, 32], and merges the branch and channel axes into one of length 1024.

  Three things are proved. (1) A sum over a rank-4 index set is the fourfold sum over its coordinates, and the sum over
  axes 0, 2, 3 read at channel `c` keeps exactly the entries of channel `c`: the index (b, c', h, w) is dropped to c',
  so the entries with c' ≠ c contribute nothing and the three remaining sums are the specification's `chanSum`.
  (2) With that, each stage of the statistics is the specification's: the quotient by 32768 is the product with 2^-15.
  (3) Every broadcast reads its operand at the coordinates it keeps, and the reshape's flat-position arithmetic sends
  output channel q to (q / 64, q % 64); so the result at (b, q, h, w) is branch q / 64 at channel q % 64.
-/
import proofs.«104697_j7902739824826_1_alg».proof.Proof.Gen.ReferenceIdeal.Run
import proofs.«104697_j7902739824826_1_alg».proof.Proof.Gen.ReferenceIdeal.Read
import proofs.«104697_j7902739824826_1_alg».proof.Proof.BnSpec
import proofs.«104697_j7902739824826_1_alg».proof.Proof.BnConsts
import Idealize.ShloMosaic.Lib.IdealHost
import Idealize.ShloMosaic.PureOps.Ideal.Laws
import Idealize.ShloMosaic.Lib.ValueIdx
import Idealize.ShloMosaic.Lib.Pipeline.Value

noncomputable section

open scoped BigOperators

namespace Cert.RefValue

open Idealize.ShloMosaic Idealize.ShloMosaic.ValueIdx Cert.ReferenceIdeal Cert.ReferenceIdeal.Gen Cert.ReferenceIdeal.Read Cert.BnSpec

/-! ## A sum over a rank-4 index set, coordinate by coordinate -/

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-! ## The sum over batch, height and width -/

/-- Dropping batch, height and width from an index of the input leaves its channel. -/
theorem drop_ix4 (b : Fin 32) (c : Fin 64) (h w : Fin 32) :
    reducesTo_S32x64x32x32_S64_d0_2_3.drop (ix4 b c h w) = ix1 c := by
  funext a
  have ha : a = (0 : Fin 1) := Subsingleton.elim _ _
  subst ha
  exact Fin.ext (Shape.ReducesTo.drop_apply_val_of_eq reducesTo_S32x64x32x32_S64_d0_2_3 (ix4 b c h w)
    (0 : Fin 1) (1 : Fin 4))

/-- The host's sum over axes 0, 2 and 3 of a [32, 64, 32, 32] array, read at channel `c`: the initial value plus the
    sum of the channel's entries over batch, height and width. The entries of another channel `c'` are dropped to
    `c'`, not `c`, and contribute nothing. -/
theorem hostSum_chan (y : SX.Idx → EReal) (init : EReal) (c : Fin 64) :
    Ideal.hostReduceAdd reducesTo_S32x64x32x32_S64_d0_2_3 y init (ix1 c)
      = init + chanSum (fun b h w => y (ix4 b c h w)) := by
  unfold Ideal.hostReduceAdd chanSum
  congr 1
  rw [Finset.sum_filter, sum_idx4]
  refine Finset.sum_congr rfl fun b _ => ?_
  rw [Finset.sum_eq_single c]
  · refine Finset.sum_congr rfl fun h _ => Finset.sum_congr rfl fun w _ => ?_
    rw [if_pos (drop_ix4 b c h w)]
  · intro c' _ hne
    refine Finset.sum_eq_zero fun h _ => Finset.sum_eq_zero fun w _ => ?_
    rw [if_neg]
    rw [drop_ix4]
    intro e
    exact hne (congrFun e 0)
  · intro hnot
    exact absurd (Finset.mem_univ c) hnot

/-! ## Mean, variance and inverse standard deviation, as the reference computes them -/

/-- The reference's first sum at channel `c`: the channel's entries summed from zero. -/
theorem val_v0 (x : SX.Idx → EReal) (c : Fin 64) :
    val_main_v0 (F := Ideal) x (ix1 c) = chanSum (fun b h w => x (ix4 b c h w)) := by
  unfold val_main_v0
  rw [hostReduceAdd_apply, hostSum_chan, val_main_cst_apply, Ideal.ofBits_def, Ideal.ofBits_zero_f32, zero_add]

/-- The reference divides the sum by 32768: the product with 2^-15, the specification's mean. -/
theorem val_v2 (x : SX.Idx → EReal) (c : Fin 64) :
    val_main_v2 (F := Ideal) x (ix1 c) = mean x c := by
  rw [val_main_v2_apply, val_v0, val_main_v1_apply, val_main_cst_0_apply, Ideal.hostDivf_def, Ideal.ofBits_def,
    Cert.BnConsts.div_count]
  rfl

/-- The mean broadcast back over the input's shape reads channel `c`'s mean at every entry of channel `c`. -/
theorem idx_v3_v4 (b : Fin 32) (c : Fin 64) (h w : Fin 32) :
    idx_main_v3 (idx_main_v4 (ix4 b c h w)) = ix1 c := by
  funext a
  have ha : a = (0 : Fin 1) := Subsingleton.elim _ _
  subst ha
  rfl

theorem val_v4 (x : SX.Idx → EReal) (b : Fin 32) (c : Fin 64) (h w : Fin 32) :
    val_main_v4 (F := Ideal) x (ix4 b c h w) = mean x c := by
  rw [val_main_v4_apply, val_main_v3_apply, idx_v3_v4, val_v2]

/-- The squared deviation at an entry. -/
theorem val_v6 (x : SX.Idx → EReal) (b : Fin 32) (c : Fin 64) (h w : Fin 32) :
    val_main_v6 (F := Ideal) x (ix4 b c h w)
      = (x (ix4 b c h w) - mean x c) * (x (ix4 b c h w) - mean x c) := by
  rw [val_main_v6_apply, val_main_v5_apply, val_v4, Ideal.mulf_def, Ideal.subf_def]

/-- The reference's second sum at channel `c`: the squared deviations summed from zero; divided by 32768 it is the
    specification's variance. -/
theorem val_v9 (x : SX.Idx → EReal) (c : Fin 64) :
    val_main_v9 (F := Ideal) x (ix1 c) = var x c := by
  have h7 : val_main_v7 (F := Ideal) x (ix1 c)
      = chanSum (fun b h w => (x (ix4 b c h w) - mean x c) * (x (ix4 b c h w) - mean x c)) := by
    unfold val_main_v7
    rw [hostReduceAdd_apply, hostSum_chan, val_main_cst_1_apply, Ideal.ofBits_def, Ideal.ofBits_zero_f32, zero_add]
    congr 1
    funext b h w
    exact val_v6 x b c h w
  rw [val_main_v9_apply, h7, val_main_v8_apply, val_main_cst_2_apply, Ideal.hostDivf_def, Ideal.ofBits_def,
    Cert.BnConsts.div_count]
  rfl

/-- The inverse standard deviation at channel `c`. -/
theorem val_v12 (x : SX.Idx → EReal) (c : Fin 64) :
    val_main_v12 (F := Ideal) x (ix1 c) = istd x c := by
  rw [val_main_v12_apply, val_main_v11_apply, val_v9, val_main_v10_apply, val_main_cst_3_apply,
    Ideal.hostUnary_rsqrt_def, Ideal.addf_def, Ideal.ofBits_def]
  rfl

/-! ## The normalized input, and the sixteen branches side by side -/

/-- The mean and the inverse standard deviation, each broadcast back over the input's shape a second time, read channel
    `c`'s value at every entry of channel `c`. -/
theorem idx_v13_v14 (b : Fin 32) (c : Fin 64) (h w : Fin 32) :
    idx_main_v13 (idx_main_v14 (ix4 b c h w)) = ix1 c := by
  funext a
  have ha : a = (0 : Fin 1) := Subsingleton.elim _ _
  subst ha
  rfl

theorem idx_v16_v17 (b : Fin 32) (c : Fin 64) (h w : Fin 32) :
    idx_main_v16 (idx_main_v17 (ix4 b c h w)) = ix1 c := by
  funext a
  have ha : a = (0 : Fin 1) := Subsingleton.elim _ _
  subst ha
  rfl

/-- The normalized input at an entry: the deviation from the channel's mean times the channel's inverse standard
    deviation. -/
theorem val_v18 (x : SX.Idx → EReal) (b : Fin 32) (c : Fin 64) (h w : Fin 32) :
    val_main_v18 (F := Ideal) x (ix4 b c h w) = (x (ix4 b c h w) - mean x c) * istd x c := by
  rw [val_main_v18_apply, val_main_v15_apply, val_main_v14_apply, val_main_v13_apply, idx_v13_v14, val_v2,
    val_main_v17_apply, val_main_v16_apply, idx_v16_v17, val_v12, Ideal.mulf_def, Ideal.subf_def]

/-- In the five-axis array (batch, branch, channel, height, width) the scale and the shift are read at
    (branch, channel) … -/
theorem idx_v19_v21 (B : Fin 32) (N : Fin 16) (C : Fin 64) (H W : Fin 32) :
    idx_main_v19 (idx_main_v21 (ix5 B N C H W)) = ix2 N C := by
  funext a
  match a with
  | ⟨0, _⟩ => rfl
  | ⟨1, _⟩ => rfl

theorem idx_v24_v25 (B : Fin 32) (N : Fin 16) (C : Fin 64) (H W : Fin 32) :
    idx_main_v24 (idx_main_v25 (ix5 B N C H W)) = ix2 N C := by
  funext a
  match a with
  | ⟨0, _⟩ => rfl
  | ⟨1, _⟩ => rfl

/-- … and the normalized input at (batch, channel, height, width), whatever the branch. -/
theorem idx_v20_v22 (B : Fin 32) (N : Fin 16) (C : Fin 64) (H W : Fin 32) :
    idx_main_v20 (idx_main_v22 (ix5 B N C H W)) = ix4 B C H W := by
  funext a
  match a with
  | ⟨0, _⟩ => rfl
  | ⟨1, _⟩ => rfl
  | ⟨2, _⟩ => rfl
  | ⟨3, _⟩ => rfl

/-- The five-axis array at (batch, branch, channel, height, width) is that branch's affine map of the normalized input. -/
theorem val_v26 (x : SX.Idx → EReal) (g bt : SP.Idx → EReal) (B : Fin 32) (N : Fin 16) (C : Fin 64) (H W : Fin 32) :
    val_main_v26 (F := Ideal) x g bt (ix5 B N C H W) = branch x g bt B N C H W := by
  rw [val_main_v26_apply, val_main_v23_apply, val_main_v21_apply, val_main_v19_apply, idx_v19_v21,
    val_main_v22_apply, val_main_v20_apply, idx_v20_v22, val_v18,
    val_main_v25_apply, val_main_v24_apply, idx_v24_v25, Ideal.addf_def, Ideal.mulf_def]
  rfl

/-- The reshape merges the branch and channel axes into one of length 1024 = 16 · 64, keeping row-major order: output
    channel `q` at (batch, height, width) is the five-axis array at (batch, q / 64, q % 64, height, width). With the flat
    position `((b · 1024 + q) · 32 + h) · 32 + w` and `q < 1024`, `h, w < 32`, the five quotients and remainders the reshape
    computes are `b`, `q / 64`, `q % 64`, `h`, `w`. -/
theorem idx_v27 (j : SO.Idx) :
    idx_main_v27 j = ix5 (⟨(j 0).val, (j 0).isLt⟩ : Fin 32)
      (⟨(j 1).val / 64, by have h : (j 1).val < 1024 := (j 1).isLt; omega⟩ : Fin 16)
      (⟨(j 1).val % 64, Nat.mod_lt _ (by decide)⟩ : Fin 64)
      (⟨(j 2).val, (j 2).isLt⟩ : Fin 32) (⟨(j 3).val, (j 3).isLt⟩ : Fin 32) := by
  have h0 : (j 0).val < 32 := (j 0).isLt
  have h1 : (j 1).val < 1024 := (j 1).isLt
  have h2 : (j 2).val < 32 := (j 2).isLt
  have h3 : (j 3).val < 32 := (j 3).isLt
  funext a
  match a with
  | ⟨0, _⟩ => exact Fin.ext (by show ((((j 0).val * 1024 + (j 1).val) * 32 + (j 2).val) * 32 + (j 3).val) / 1048576 = (j 0).val; omega)
  | ⟨1, _⟩ => exact Fin.ext (by show ((((j 0).val * 1024 + (j 1).val) * 32 + (j 2).val) * 32 + (j 3).val) / 65536 % 16 = (j 1).val / 64; omega)
  | ⟨2, _⟩ => exact Fin.ext (by show ((((j 0).val * 1024 + (j 1).val) * 32 + (j 2).val) * 32 + (j 3).val) / 1024 % 64 = (j 1).val % 64; omega)
  | ⟨3, _⟩ => exact Fin.ext (by show ((((j 0).val * 1024 + (j 1).val) * 32 + (j 2).val) * 32 + (j 3).val) / 32 % 32 = (j 2).val; omega)
  | ⟨4, _⟩ => exact Fin.ext (by show ((((j 0).val * 1024 + (j 1).val) * 32 + (j 2).val) * 32 + (j 3).val) % 32 = (j 3).val; omega)

/-- The reference's result is the specification's, entry by entry. -/
theorem ref_eq_result (x : Cert.BnSpec.SX.Idx → EReal) (g bt : Cert.BnSpec.SP.Idx → EReal) :
    Cert.ReferenceIdeal.Read.val_main_v27 (F := Ideal) x g bt = Cert.BnSpec.result x g bt := by
  funext j
  rw [val_main_v27_apply, idx_v27, val_v26]
  rfl

end Cert.RefValue

end
-- ==== Proof.lean ====
/-
  Two programs for one batch normalization shared by sixteen affine branches, equal over the extended reals.

  Input `x` : [32, 64, 32, 32] (batch, channel, height, width); `gamma`, `beta` : [16, 64] (branch, channel). Per channel the mean and
  the biased variance of `x` over batch, height and width (32768 = 2^15 entries), the inverse standard deviation
  `rsqrt (var + eps)`, and for branch `n` the value `gamma n c · ((x b c h w − mean c) · istd c) + beta n c` at output channel
  `n · 64 + c` of the [32, 1024, 32, 32] result (Proof/BnSpec.lean states this as one function, `result`).

  The kernel program folds height and width into 1024 lanes and runs two kernels. The first sees the whole folded input as one
  block and writes a [2, 64] table: row 0 the means, each a sum over the 32 batch rows and then over the 1024 lanes, times the
  pattern of 2^-15; row 1 the inverse standard deviations. The second runs on a 2 × 16 grid (half of the batch by branch):
  it selects the branch's row of each parameter table by multiplying the table with a one-hot column and summing over the
  sixteen rows, then applies the affine map to the normalized block. The reference sums over the three axes at once and
  DIVIDES by 32768 where the kernel multiplies by 2^-15, and indexes the parameter tables directly.

  Why the two agree on every extended real, with no use of the inputs' finiteness: finite sums commute and reassociate in any
  commutative monoid (lanes-then-rows against batch-height-width: Proof/KFold.lean); a quotient by a nonzero real IS the product
  with its reciprocal, at the infinities too (Proof/BnConsts.lean); a product with the extended real zero is zero, so the one-hot
  sum keeps exactly the branch's term (Proof/KNorm.lean); the stabilizer `eps` is the same pattern on both sides and is never
  evaluated; both inverse square roots are one function.

  The modules: Proof/KStats.lean and Proof/KNorm.lean read the two kernels' stored values at an index; Proof/KValue.lean carries
  them through the blocks to the arrays (the first kernel's one block is the whole table; the second's 32 blocks tile the
  [32, 16, 64, 1024] array) and through the two reshapes to the program's result; Proof/RefValue.lean reads the reference's
  operations one at a time down to the same function; here the five claims are assembled.
-/
import proofs.«104697_j7902739824826_1_alg».proof.Defs
import proofs.«104697_j7902739824826_1_alg».proof.Proof.Gen.Kernel
import proofs.«104697_j7902739824826_1_alg».proof.Proof.Gen.Kernel.Skeleton
import proofs.«104697_j7902739824826_1_alg».proof.Proof.Gen.Kernel.Launch
import proofs.«104697_j7902739824826_1_alg».proof.Proof.Gen.Kernel.Points
import proofs.«104697_j7902739824826_1_alg».proof.Proof.KernelFrame
import proofs.«104697_j7902739824826_1_alg».proof.Proof.Gen.KernelIdeal
import proofs.«104697_j7902739824826_1_alg».proof.Proof.Gen.KernelIdeal.Skeleton
import proofs.«104697_j7902739824826_1_alg».proof.Proof.Gen.KernelIdeal.Launch
import proofs.«104697_j7902739824826_1_alg».proof.Proof.Gen.KernelIdeal.Points
import proofs.«104697_j7902739824826_1_alg».proof.Proof.KernelIdealFrame
import proofs.«104697_j7902739824826_1_alg».proof.Proof.Gen.ReferenceIdeal
import proofs.«104697_j7902739824826_1_alg».proof.Proof.Gen.ReferenceIdeal.Run
import proofs.«104697_j7902739824826_1_alg».proof.Proof.Gen.ReferenceIdeal.Read
import proofs.«104697_j7902739824826_1_alg».proof.Proof.Gen.Pre_finite_inputs
import proofs.«104697_j7902739824826_1_alg».proof.Proof.BnSpec
import proofs.«104697_j7902739824826_1_alg».proof.Proof.KValue
import proofs.«104697_j7902739824826_1_alg».proof.Proof.RefValue
import Idealize.ShloMosaic.Adequacy
import Idealize.ShloMosaic.Init

noncomputable section

namespace Cert.Proof

open Idealize.ShloMosaic Idealize.SL.Sem

/-- The kernel program as printed runs to the end and leaves its three arguments as launched. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the three arguments, both programs end with the specification's function of them in their
    result buffers: the kernel program by Proof/KValue.lean's `result_eq`, the reference by Proof/RefValue.lean's `ref_eq_result`. -/
theorem algebraic : Cert.algebraic_KernelIdeal_ReferenceIdeal := by
  intro m ρ m' ρ' _ hagree
  refine ⟨fun c => Cert.BnSpec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KValue.result_eq m ρ c), (h c).2⟩) (Cert.KernelIdeal.GenP.run_main m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v27_eq, Cert.RefValue.ref_eq_result, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
